-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S100000x32 : Shape := ⟨2, ![100000, 32]⟩
abbrev S200000x32 : Shape := ⟨2, ![200000, 32]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S200000x32 : S_.BroadcastsInDim S200000x32 (![] : Fin 0 → Fin S200000x32.rank)
  reducesTo_S200000x32_S_d0_1 : S200000x32.ReducesTo [0, 1] S_

variable [Facts]

def fn {F : FTy → Type} [FloatOps F] (main_arg0 : IVec S2000000 32) (main_arg1 : IVec S2000000 32) (main_arg2 : FVec F S2000000 .f32) (main_arg3 : FVec F S100000x32 .f32) (main_arg4 : FVec F S200000x32 .f32) : IVec S_ 1 :=
  let main_v0 : FVec F S2000000 .f32 := Host.absf main_arg2
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S100000x32 .f32 := Host.absf main_arg3
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S200000x32 .f32 := Host.absf main_arg4
  let main_cst_2 : FVec F S_ .f32 := constant S_ .f32 0x7F800000#32
  let main_v10 : FVec F S200000x32 .f32 := broadcastInDim S200000x32 ![] bcast_S_S200000x32 main_cst_2
  let main_v11 : IVec S200000x32 1 := cmpf .olt main_v9 main_v10
  let main_c_3 : IVec S_ 1 := constantI S_ 1 1#1
  let main_v12 : IVec S_ 1 := (fun x v => Host.reduce IntOp.andi x v reducesTo_S200000x32_S_d0_1 h_S_) main_v11 main_c_3
  let main_v13 : IVec S_ 1 := andi main_v8 main_v12
  main_v13
-- ==== Kernel.lean ====
abbrev S2000000 : Shape := ⟨1, ![2000000]⟩
abbrev S100000x32 : Shape := ⟨2, ![100000, 32]⟩
abbrev S200000x32 : Shape := ⟨2, ![200000, 32]⟩
abbrev S_ : Shape := ⟨0, ![]⟩
abbrev S2000000x1 : Shape := ⟨2, ![2000000, 1]⟩
abbrev S2000000x32 : Shape := ⟨2, ![2000000, 32]⟩
abbrev S1x1 : Shape := ⟨2, ![1, 1]⟩
abbrev S10000x1 : Shape := ⟨2, ![10000, 1]⟩
abbrev S10000x32 : Shape := ⟨2, ![10000, 32]⟩
abbrev S10000 : Shape := ⟨1, ![10000]⟩
abbrev S1x10000 : Shape := ⟨2, ![1, 10000]⟩
abbrev S1 : Shape := ⟨1, ![1]⟩

abbrev nBuf : Space → Nat
  | .hbm => 38
  | .vmem => 9
  | .smem => 0
  | _ => 0

abbrev bufTy : (tb : Table) → Fin (tcTables nBuf tb) → BufTy
  | .hbm, ⟨0, _⟩ => ⟨S2000000, .i32⟩
  | .hbm, ⟨1, _⟩ => ⟨S2000000, .i32⟩
  | .hbm, ⟨2, _⟩ => ⟨S2000000, .f32⟩
  | .hbm, ⟨3, _⟩ => ⟨S100000x32, .f32⟩
  | .hbm, ⟨4, _⟩ => ⟨S200000x32, .f32⟩
  | .hbm, ⟨5, _⟩ => ⟨S_, .i32⟩
  | .hbm, ⟨6, _⟩ => ⟨S2000000, .i32⟩
  | .hbm, ⟨7, _⟩ => ⟨S2000000, .i1⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S2000000, .i32⟩
  | .hbm, ⟨12, _⟩ => ⟨S2000000x1, .i32⟩
  | .hbm, ⟨13, _⟩ => ⟨S2000000x32, .f32⟩
  | .hbm, ⟨14, _⟩ => ⟨S_, .i32⟩
  | .hbm, ⟨15, _⟩ => ⟨S2000000, .i32⟩
  | .hbm, ⟨16, _⟩ => ⟨S2000000, .i1⟩
  | .hbm, ⟨17, _⟩ => ⟨S_, .i32⟩
  | .hbm, ⟨18, _⟩ => ⟨S2000000, .i32⟩
  | .hbm, ⟨19, _⟩ => ⟨S2000000, .i32⟩
  | .hbm, ⟨20, _⟩ => ⟨S2000000, .i32⟩
  | .hbm, ⟨21, _⟩ => ⟨S2000000x1, .i32⟩
  | .hbm, ⟨22, _⟩ => ⟨S2000000x32, .f32⟩
  | .hbm, ⟨23, _⟩ => ⟨S2000000x1, .f32⟩
  | .hbm, ⟨24, _⟩ => ⟨S1x1, .f32⟩
  | .hbm, ⟨25, _⟩ => ⟨S1x1, .f32⟩
  | .hbm, ⟨26, _⟩ => ⟨S1x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S10000x1, .f32⟩
  | .local _ .vmem, ⟨1, _⟩ => ⟨S10000x1, .f32⟩
  | .local _ .vmem, ⟨2, _⟩ => ⟨S10000x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | _, _ => ⟨S2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S2000000_S2000000x1 : S2000000.ShapeCasts S2000000x1
  inb_S1x1_S1x1_0_0 : ∀ a, (![0, 0] : Fin 2 → Nat) a + S1x1.size a ≤ S1x1.size a
  h_S1x1 : 0 < S1x1.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  shapeCasts_S10000x1_S10000 : S10000x1.ShapeCasts S10000
  reduces_S10000x32_S10000 : S10000x32.Reduces [1] S10000
  shapeCasts_S10000_S1x10000 : S10000.ShapeCasts S1x10000
  reduces_S1x10000_S1 : S1x10000.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  gather_S100000x32_S2000000x1_S2000000x32_1_0_n_n_0_1_132_wf : GatherDims.WF S100000x32 S2000000x1 S2000000x32 [1] [0] [] [0] [] 1 ![1, 32]
  gather_S200000x32_S2000000x1_S2000000x32_1_0_n_n_0_1_132_wf : GatherDims.WF S200000x32 S2000000x1 S2000000x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S2000000x1.size a
  hwx0_0 : ∀ i : grid0.Coords, EltTy.bits .f32 = 32 ∨ (Rect.block (s := S2000000x1) S10000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S2000000x32.size a
  hwx0_1 : ∀ i : grid0.Coords, EltTy.bits .f32 = 32 ∨ (Rect.block (s := S2000000x32) S10000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S2000000x32.size a
  hwx0_2 : ∀ i : grid0.Coords, EltTy.bits .f32 = 32 ∨ (Rect.block (s := S2000000x32) S10000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def gather_S200000x32_S2000000x1_S2000000x32_1_0_n_n_0_1_132 : GatherDims S200000x32 S2000000x1 S2000000x32 where
  offsetDims := [1]
  collapsedSliceDims := [0]
  operandBatchingDims := []
  startIndicesBatchingDims := []
  startIndexMap := [0]
  indexVectorDim := 1
  sliceSizes := ![1, 32]
  wf := gather_S200000x32_S2000000x1_S2000000x32_1_0_n_n_0_1_132_wf

abbrev win0_0 : Pipeline.Window sig grid0 :=
  Pipeline.Window.ofSpec (Memref.whole main_v14) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_2) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2000000 : Shape := ⟨1, ![2000000]⟩
abbrev S100000x32 : Shape := ⟨2, ![100000, 32]⟩
abbrev S200000x32 : Shape := ⟨2, ![200000, 32]⟩
abbrev S_ : Shape := ⟨0, ![]⟩
abbrev S2000000x1 : Shape := ⟨2, ![2000000, 1]⟩
abbrev S2000000x32 : Shape := ⟨2, ![2000000, 32]⟩

abbrev nBuf : Space → Nat
  | .hbm => 58
  | .vmem => 0
  | .smem => 0
  | _ => 0

abbrev bufTy : (tb : Table) → Fin (tcTables nBuf tb) → BufTy
  | .hbm, ⟨0, _⟩ => ⟨S2000000, .i32⟩
  | .hbm, ⟨1, _⟩ => ⟨S2000000, .i32⟩
  | .hbm, ⟨2, _⟩ => ⟨S2000000, .f32⟩
  | .hbm, ⟨3, _⟩ => ⟨S100000x32, .f32⟩
  | .hbm, ⟨4, _⟩ => ⟨S200000x32, .f32⟩
  | .hbm, ⟨5, _⟩ => ⟨S_, .i32⟩
  | .hbm, ⟨6, _⟩ => ⟨S2000000, .i32⟩
  | .hbm, ⟨7, _⟩ => ⟨S2000000, .i1⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S2000000, .i32⟩
  | .hbm, ⟨12, _⟩ => ⟨S2000000x1, .i32⟩
  | .hbm, ⟨13, _⟩ => ⟨S2000000x32, .f32⟩
  | .hbm, ⟨14, _⟩ => ⟨S_, .i32⟩
  | .hbm, ⟨15, _⟩ => ⟨S2000000, .i32⟩
  | .hbm, ⟨16, _⟩ => ⟨S2000000, .i1⟩
  | .hbm, ⟨17, _⟩ => ⟨S_, .i32⟩
  | .hbm, ⟨18, _⟩ => ⟨S2000000, .i32⟩
  | .hbm, ⟨19, _⟩ => ⟨S2000000, .i32⟩
  | .hbm, ⟨20, _⟩ => ⟨S2000000, .i32⟩
  | .hbm, ⟨21, _⟩ => ⟨S2000000x1, .i32⟩
  | .hbm, ⟨22, _⟩ => ⟨S2000000x32, .f32⟩
  | .hbm, ⟨23, _⟩ => ⟨S2000000x32, .f32⟩
  | .hbm, ⟨24, _⟩ => ⟨S_, .f32⟩
  | .hbm, ⟨25, _⟩ => ⟨S2000000, .f32⟩
  | .hbm, ⟨26, _⟩ => ⟨S_, .f32⟩
  | .hbm, ⟨27, _⟩ => ⟨S2000000, .f32⟩
  | .hbm, ⟨28, _⟩ => ⟨S2000000, .f32⟩
  | .hbm, ⟨29, _⟩ => ⟨S2000000, .f32⟩
  | .hbm, ⟨30, _⟩ => ⟨S2000000, .f32⟩
  | .hbm, ⟨31, _⟩ => ⟨S2000000, .i1⟩
  | .hbm, ⟨32, _⟩ => ⟨S2000000, .f32⟩
  | .hbm, ⟨33, _⟩ => ⟨S2000000, .f32⟩
  | .hbm, ⟨34, _⟩ => ⟨S2000000, .f32⟩
  | .hbm, ⟨35, _⟩ => ⟨S2000000, .f32⟩
  | .hbm, ⟨36, _⟩ => ⟨S2000000, .f32⟩
  | .hbm, ⟨37, _⟩ => ⟨S2000000, .f32⟩
  | .hbm, ⟨38, _⟩ => ⟨S2000000, .f32⟩
  | .hbm, ⟨39, _⟩ => ⟨S2000000, .f32⟩
  | .hbm, ⟨40, _⟩ => ⟨S2000000, .f32⟩
  | .hbm, ⟨41, _⟩ => ⟨S2000000, .f32⟩
  | .hbm, ⟨42, _⟩ => ⟨S_, .f32⟩
  | .hbm, ⟨43, _⟩ => ⟨S_, .f32⟩
  | .hbm, ⟨44, _⟩ => ⟨S2000000x32, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S2000000x32, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  reducesTo_S2000000x32_S2000000_d1 : S2000000x32.ReducesTo [1] S2000000
  h_S_ : 0 < S_.numel
  reducesTo_S2000000_S_d0 : S2000000.ReducesTo [0] S_
  reducesTo_S2000000x32_S_d0_1 : S2000000x32.ReducesTo [0, 1] S_
  gather_S100000x32_S2000000x1_S2000000x32_1_0_n_n_0_1_132_wf : GatherDims.WF S100000x32 S2000000x1 S2000000x32 [1] [0] [] [0] [] 1 ![1, 32]
  gather_S200000x32_S2000000x1_S2000000x32_1_0_n_n_0_1_132_wf : GatherDims.WF S200000x32 S2000000x1 S2000000x32 [1] [0] [] [0] [] 1 ![1, 32]

variable [Facts₀]

def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def gather_S200000x32_S2000000x1_S2000000x32_1_0_n_n_0_1_132 : GatherDims S200000x32 S2000000x1 S2000000x32 where
  offsetDims := [1]
  collapsedSliceDims := [0]
  operandBatchingDims := []
  startIndicesBatchingDims := []
  startIndexMap := [0]
  indexVectorDim := 1
  sliceSizes := ![1, 32]
  wf := gather_S200000x32_S2000000x1_S2000000x32_1_0_n_n_0_1_132_wf

class Facts : Prop extends Facts₀ where

variable [Facts]
-- ==== Proof.KPieces.lean ====
/-
  What one run of the kernel body leaves in each of its three one-word accumulators, as a value: at the first
  grid point (the accumulators are reset to zero, read back, and the point's partial sum added) and at every later
  point (the running value read, the partial sum added). The three partial sums are pure functions of the
  point's three input blocks; their arithmetic is read in another module.
-/
import proofs.«152220_j7301444403233_1_alg».proof.Defs
import proofs.«152220_j7301444403233_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

/-- The zero offsets of a whole-block access. -/
theorem hz : (![0, 0] : Fin 2 → Nat) = fun _ => 0 := funext fun a => by fin_cases a <;> rfl

/-- At the first point the loss accumulator ends at the partial sum added to the zero just stored there. -/
theorem out_A_3 (c : Dev nD) (i : grid0.Coords) (a1 : Memref sig .tc .vmem S10000x1 .f32) (h1 : a1.IsWhole)
    (a2 : Memref sig .tc .vmem S10000x32 .f32) (h2 : a2.IsWhole) (a3 : Memref sig .tc .vmem S10000x32 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc : cond0_0 i)
    (x0 : Vec F S10000x1 .f32) (x1 x2 : Vec F S10000x32 .f32) :
    out0_A_3 c i a1 h1 a2 h2 a3 h3 a4 h4 a5 h5 a6 h6 hc x0 x1 x2 = k0_pay1 (k0_pay9 x1 x2 x0) (k0_pay4 (F := F)) := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread,
    View.ld_unit_zero (S := S10000x32) hz, View.ld_unit_zero (S := S10000x1) hz, View.ld_unit_zero (S := S1x1) hz]

/-- At a later point the loss accumulator ends at the partial sum added to what the point before left. -/
theorem out_B_3 (c : Dev nD) (i : grid0.Coords) (a1 : Memref sig .tc .vmem S10000x1 .f32) (h1 : a1.IsWhole)
    (a2 : Memref sig .tc .vmem S10000x32 .f32) (h2 : a2.IsWhole) (a3 : Memref sig .tc .vmem S10000x32 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc : ¬cond0_0 i)
    (x0 : Vec F S10000x1 .f32) (x1 x2 : Vec F S10000x32 .f32) (xo3 xo4 xo5 : Vec F S1x1 .f32) :
    out0_B_3 c i a1 h1 a2 h2 a3 h3 a4 h4 a5 h5 a6 h6 hc x0 x1 x2 xo3 xo4 xo5 = k0_pay1 (k0_pay9 x1 x2 x0) xo3 := by
  unfold out0_B_3
  rw [View.read_writes_eq_canon _ _ _ (cover0_B_3 c i a1 h1 a2 h2 a3 h3 a4 h4 a5 h5 a6 h6 hc x0 x1 x2 xo3 xo4 xo5)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S10000x32) hz, View.ld_unit_zero (S := S10000x1) hz, View.ld_unit_zero (S := S1x1) hz]

/-- At the first point the accumulator of the first array's squares ends at the partial sum added to the zero just stored there. -/
theorem out_A_4 (c : Dev nD) (i : grid0.Coords) (a1 : Memref sig .tc .vmem S10000x1 .f32) (h1 : a1.IsWhole)
    (a2 : Memref sig .tc .vmem S10000x32 .f32) (h2 : a2.IsWhole) (a3 : Memref sig .tc .vmem S10000x32 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc : cond0_0 i)
    (x0 : Vec F S10000x1 .f32) (x1 x2 : Vec F S10000x32 .f32) :
    out0_A_4 c i a1 h1 a2 h2 a3 h3 a4 h4 a5 h5 a6 h6 hc x0 x1 x2 = k0_pay2 (k0_pay10 x1) (k0_pay5 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread,
    View.ld_unit_zero (S := S10000x32) hz, View.ld_unit_zero (S := S10000x1) hz, View.ld_unit_zero (S := S1x1) hz]

/-- At a later point the accumulator of the first array's squares ends at the partial sum added to what the point before left. -/
theorem out_B_4 (c : Dev nD) (i : grid0.Coords) (a1 : Memref sig .tc .vmem S10000x1 .f32) (h1 : a1.IsWhole)
    (a2 : Memref sig .tc .vmem S10000x32 .f32) (h2 : a2.IsWhole) (a3 : Memref sig .tc .vmem S10000x32 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc : ¬cond0_0 i)
    (x0 : Vec F S10000x1 .f32) (x1 x2 : Vec F S10000x32 .f32) (xo3 xo4 xo5 : Vec F S1x1 .f32) :
    out0_B_4 c i a1 h1 a2 h2 a3 h3 a4 h4 a5 h5 a6 h6 hc x0 x1 x2 xo3 xo4 xo5 = k0_pay2 (k0_pay10 x1) xo4 := by
  unfold out0_B_4
  rw [View.read_writes_eq_canon _ _ _ (cover0_B_4 c i a1 h1 a2 h2 a3 h3 a4 h4 a5 h5 a6 h6 hc x0 x1 x2 xo3 xo4 xo5)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S10000x32) hz, View.ld_unit_zero (S := S10000x1) hz, View.ld_unit_zero (S := S1x1) hz]

/-- At the first point the accumulator of the second array's squares ends at the partial sum added to the zero just stored there. -/
theorem out_A_5 (c : Dev nD) (i : grid0.Coords) (a1 : Memref sig .tc .vmem S10000x1 .f32) (h1 : a1.IsWhole)
    (a2 : Memref sig .tc .vmem S10000x32 .f32) (h2 : a2.IsWhole) (a3 : Memref sig .tc .vmem S10000x32 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc : cond0_0 i)
    (x0 : Vec F S10000x1 .f32) (x1 x2 : Vec F S10000x32 .f32) :
    out0_A_5 c i a1 h1 a2 h2 a3 h3 a4 h4 a5 h5 a6 h6 hc x0 x1 x2 = k0_pay3 (k0_pay11 x2) (k0_pay6 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread,
    View.ld_unit_zero (S := S10000x32) hz, View.ld_unit_zero (S := S10000x1) hz, View.ld_unit_zero (S := S1x1) hz]

/-- At a later point the accumulator of the second array's squares ends at the partial sum added to what the point before left. -/
theorem out_B_5 (c : Dev nD) (i : grid0.Coords) (a1 : Memref sig .tc .vmem S10000x1 .f32) (h1 : a1.IsWhole)
    (a2 : Memref sig .tc .vmem S10000x32 .f32) (h2 : a2.IsWhole) (a3 : Memref sig .tc .vmem S10000x32 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc : ¬cond0_0 i)
    (x0 : Vec F S10000x1 .f32) (x1 x2 : Vec F S10000x32 .f32) (xo3 xo4 xo5 : Vec F S1x1 .f32) :
    out0_B_5 c i a1 h1 a2 h2 a3 h3 a4 h4 a5 h5 a6 h6 hc x0 x1 x2 xo3 xo4 xo5 = k0_pay3 (k0_pay11 x2) xo5 := by
  unfold out0_B_5
  rw [View.read_writes_eq_canon _ _ _ (cover0_B_5 c i a1 h1 a2 h2 a3 h3 a4 h4 a5 h5 a6 h6 hc x0 x1 x2 xo3 xo4 xo5)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S10000x32) hz, View.ld_unit_zero (S := S10000x1) hz, View.ld_unit_zero (S := S1x1) hz]

end Cert.KernelIdeal.KValue

end
-- ==== Proof.KChain.lean ====
/-
  The three accumulators over the grid: what each holds after point `n` is the point's partial sum added to what
  it held after point `n - 1`, from a zero at the first point (by induction on the point, over the two cases of the
  body); the last point's value is what is written back, and the one-word result arrays end holding it.
-/
import proofs.«152220_j7301444403233_1_alg».proof.Proof.KPieces

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ) (ρ : Dev nD → PrngReg)

/-- The ratings' block at a point: 10,000 rows of one. -/
abbrev rblk (c : Dev nD) (t : Fin cfg0.N) : Vec F S10000x1 .f32 := iblk m c 0 t
/-- The first gathered array's block at a point: 10,000 rows of 32. -/
abbrev ublk (c : Dev nD) (t : Fin cfg0.N) : Vec F S10000x32 .f32 := iblk m c 1 t
/-- The second gathered array's block at a point. -/
abbrev vblk (c : Dev nD) (t : Fin cfg0.N) : Vec F S10000x32 .f32 := iblk m c 2 t

/-- The loss accumulator after point `n`. -/
def acc3 (c : Dev nD) : (n : ℕ) → n < cfg0.N → Vec F S1x1 .f32
  | 0, h => k0_pay1 (k0_pay9 (ublk m c ⟨0, h⟩) (vblk m c ⟨0, h⟩) (rblk m c ⟨0, h⟩)) (k0_pay4 (F := F))
  | n + 1, h => k0_pay1 (k0_pay9 (ublk m c ⟨n + 1, h⟩) (vblk m c ⟨n + 1, h⟩) (rblk m c ⟨n + 1, h⟩)) (acc3 c n (Nat.lt_of_succ_lt h))

/-- The accumulator of the first array's squares after point `n`. -/
def acc4 (c : Dev nD) : (n : ℕ) → n < cfg0.N → Vec F S1x1 .f32
  | 0, h => k0_pay2 (k0_pay10 (ublk m c ⟨0, h⟩)) (k0_pay5 (F := F))
  | n + 1, h => k0_pay2 (k0_pay10 (ublk m c ⟨n + 1, h⟩)) (acc4 c n (Nat.lt_of_succ_lt h))

/-- The accumulator of the second array's squares after point `n`. -/
def acc5 (c : Dev nD) : (n : ℕ) → n < cfg0.N → Vec F S1x1 .f32
  | 0, h => k0_pay3 (k0_pay11 (vblk m c ⟨0, h⟩)) (k0_pay6 (F := F))
  | n + 1, h => k0_pay3 (k0_pay11 (vblk m c ⟨n + 1, h⟩)) (acc5 c n (Nat.lt_of_succ_lt h))

/-- What the three staging words hold after point `n` are the three accumulators: by induction on the point. -/
theorem outsAt_eq (c : Dev nD) : ∀ (n : ℕ) (h : n < cfg0.N), outsAt0 m c n h = (acc3 m c n h, acc4 m c n h, acc5 m c n h)
  | 0, h => by
    rw [outsAt0_A m c ⟨0, h⟩ rfl, out_A_3, out_A_4, out_A_5]
    rfl
  | n + 1, h => by
    have hN : cfg0.N = 200 := N_0
    have hB : ¬(⟨n + 1, h⟩ : Fin cfg0.N).val % 200 = 0 := by dsimp only; omega
    rw [outsAt0_B m c ⟨n + 1, h⟩ hB, out_B_3, out_B_4, out_B_5]
    show (k0_pay1 _ (outsAt0 m c n _).1, k0_pay2 _ (outsAt0 m c n _).2.1, k0_pay3 _ (outsAt0 m c n _).2.2) = _
    rw [outsAt_eq c n]
    rfl

end Cert.KernelIdeal.KValue

end
-- ==== Proof.KFinal.lean ====
/-
  From the accumulators to the program's result. Each of the three one-word result arrays is written back once,
  after the last grid point, with its accumulator's last value; the host lines after the launch read the three words and
  return the first plus a tenth of the square root of each of the other two.
-/
import proofs.«152220_j7301444403233_1_alg».proof.Proof.KChain
import Idealize.ShloMosaic.Lib.StableHlo.Run

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ) (ρ : Dev nD → PrngReg)

/-- The last grid point. -/
def tLast : Fin cfg0.N := ⟨199, by rw [show cfg0.N = 200 from N_0]; decide⟩

/-- The value written back to result array 0: the accumulator after the last point. -/
abbrev res3 (c : Dev nD) : Buf (Elt F) ((c : Thread nD τ).loc main_v15_0) := acc3 m c 199 tLast.isLt

/-- The one write-back of window 3, after the last point, writes it: the 1 by 1 block at (0, 0) is the whole array. -/
theorem flushed3 (c : Dev nD) (t : Fin cfg0.N) (hf : (cfg0.win 3).flush t = true) :
    (dats m 0 c).flushed 3 t = ((cfg0.win 3).blk t).view.read (Elt F) (res3 m c) := by
  have hN : t.val < 200 := lt_of_lt_of_eq t.isLt (show cfg0.N = 200 from N_0)
  have h199 : t.val = 199 := by have := (flush0_3 t).mp hf; omega
  obtain rfl : t = tLast := Fin.ext h199
  show (cfg0.win 3).cut (grid0.coords tLast) ((dats m 0 c).after 3 tLast) = _
  rw [after0_3, outsAt_eq]
  dsimp only
  have hz' : (fun a => win0_3.index tLast a * main_v15_0.ty.shape.size a) = fun _ => 0 := funext fun a => by fin_cases a <;> decide +kernel
  exact (Memref.read_access_unit_zero (Elt F) main_v15_0 hz' (fun a => by rw [congrFun hz' a]; simp) (res3 m c)).symm

/-- So the array ends holding it. -/
theorem final3 (c : Dev nD) : (dats m 0 c).arrAt 3 cfg0.N = res3 m c :=
  (dats m 0 c).arrAt_eq_of_cover 3 (res3 m c) (flushed3 m c) fun i =>
    ⟨tLast, (flush0_3 tLast).mpr rfl, by
      show i ∈ ((View.whole main_v15_0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The value written back to result array 1: the accumulator after the last point. -/
abbrev res4 (c : Dev nD) : Buf (Elt F) ((c : Thread nD τ).loc main_v15_1) := acc4 m c 199 tLast.isLt

/-- The one write-back of window 4, after the last point, writes it: the 1 by 1 block at (0, 0) is the whole array. -/
theorem flushed4 (c : Dev nD) (t : Fin cfg0.N) (hf : (cfg0.win 4).flush t = true) :
    (dats m 0 c).flushed 4 t = ((cfg0.win 4).blk t).view.read (Elt F) (res4 m c) := by
  have hN : t.val < 200 := lt_of_lt_of_eq t.isLt (show cfg0.N = 200 from N_0)
  have h199 : t.val = 199 := by have := (flush0_4 t).mp hf; omega
  obtain rfl : t = tLast := Fin.ext h199
  show (cfg0.win 4).cut (grid0.coords tLast) ((dats m 0 c).after 4 tLast) = _
  rw [after0_4, outsAt_eq]
  dsimp only
  have hz' : (fun a => win0_4.index tLast a * main_v15_1.ty.shape.size a) = fun _ => 0 := funext fun a => by fin_cases a <;> decide +kernel
  exact (Memref.read_access_unit_zero (Elt F) main_v15_1 hz' (fun a => by rw [congrFun hz' a]; simp) (res4 m c)).symm

/-- So the array ends holding it. -/
theorem final4 (c : Dev nD) : (dats m 0 c).arrAt 4 cfg0.N = res4 m c :=
  (dats m 0 c).arrAt_eq_of_cover 4 (res4 m c) (flushed4 m c) fun i =>
    ⟨tLast, (flush0_4 tLast).mpr rfl, by
      show i ∈ ((View.whole main_v15_1).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- The value written back to result array 2: the accumulator after the last point. -/
abbrev res5 (c : Dev nD) : Buf (Elt F) ((c : Thread nD τ).loc main_v15_2) := acc5 m c 199 tLast.isLt

/-- The one write-back of window 5, after the last point, writes it: the 1 by 1 block at (0, 0) is the whole array. -/
theorem flushed5 (c : Dev nD) (t : Fin cfg0.N) (hf : (cfg0.win 5).flush t = true) :
    (dats m 0 c).flushed 5 t = ((cfg0.win 5).blk t).view.read (Elt F) (res5 m c) := by
  have hN : t.val < 200 := lt_of_lt_of_eq t.isLt (show cfg0.N = 200 from N_0)
  have h199 : t.val = 199 := by have := (flush0_5 t).mp hf; omega
  obtain rfl : t = tLast := Fin.ext h199
  show (cfg0.win 5).cut (grid0.coords tLast) ((dats m 0 c).after 5 tLast) = _
  rw [after0_5, outsAt_eq]
  dsimp only
  have hz' : (fun a => win0_5.index tLast a * main_v15_2.ty.shape.size a) = fun _ => 0 := funext fun a => by fin_cases a <;> decide +kernel
  exact (Memref.read_access_unit_zero (Elt F) main_v15_2 hz' (fun a => by rw [congrFun hz' a]; simp) (res5 m c)).symm

/-- So the array ends holding it. -/
theorem final5 (c : Dev nD) : (dats m 0 c).arrAt 5 cfg0.N = res5 m c :=
  (dats m 0 c).arrAt_eq_of_cover 5 (res5 m c) (flushed5 m c) fun i =>
    ⟨tLast, (flush0_5 tLast).mpr rfl, by
      show i ∈ ((View.whole main_v15_2).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

/-- The host lines after the launch, as one function of the three words. -/
def tailVal (o3 o4 o5 : Vec F S1x1 .f32) : FVec F S_ .f32 :=
  addf (addf (shapeCast S_ o3 shapeCasts_S1x1_S_)
      (mulf (constant S_ .f32 0x3DCCCCCD#32) (Host.sqrt (shapeCast S_ o4 shapeCasts_S1x1_S_))))
    (mulf (constant S_ .f32 0x3DCCCCCD#32) (Host.sqrt (shapeCast S_ o5 shapeCasts_S1x1_S_)))

/-- What the program's result buffer holds after the host lines that follow the launch. -/
theorem tail_eq (c : Dev nD) :
    Pipeline.afterTail₀ cfgs (dats m) 0 (V0 m) [hostOps1] c main_v24 = tailVal (res3 m c) (res4 m c) (res5 m c) := by
  unfold Pipeline.afterTail₀
  show StableHlo.after hostOps1 _ (Proc.devRef .tc main_v24) = _
  after_results
  have e3 : Pipeline.withArrays (cfgs 0).spec c (V0 m c) (fun w => (dats m 0 c).arrAt w (cfgs 0).N) (Proc.devRef .tc main_v15_0) = res3 m c :=
    (Pipeline.withArrays_arr spec0 winFacts0.arr_inj c _ _ 3).trans (final3 m c)
  have e4 : Pipeline.withArrays (cfgs 0).spec c (V0 m c) (fun w => (dats m 0 c).arrAt w (cfgs 0).N) (Proc.devRef .tc main_v15_1) = res4 m c :=
    (Pipeline.withArrays_arr spec0 winFacts0.arr_inj c _ _ 4).trans (final4 m c)
  have e5 : Pipeline.withArrays (cfgs 0).spec c (V0 m c) (fun w => (dats m 0 c).arrAt w (cfgs 0).N) (Proc.devRef .tc main_v15_2) = res5 m c :=
    (Pipeline.withArrays_arr spec0 winFacts0.arr_inj c _ _ 5).trans (final5 m c)
  rw [e3, e4, e5]
  rfl

/-- The run, read: the result buffer at the host lines' value of the three last accumulator values, the arguments
    as they were. -/
theorem run : θ_run defs (onTc (τ := τ) (main (F := F))) ⟨m, fun _ => 0, ρ⟩ (fun r => ∀ c : Dev nD,
      r.2.mem ((c.tc : Thread nD τ).loc main_v24) = tailVal (res3 m c) (res4 m c) (res5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v24 (Pipeline.mem_restRefs_of main_v24 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.KBlocks.lean ====
/-
  Where the kernel's blocks lie in the arrays it is launched on: at point `t` the window of each of the three inputs is
  the stretch of 10,000 consecutive rows from row `10000 * t`, all of its columns. And the two arrays the host
  makes before the launch besides the gathers: the ratings as a column.
-/
import proofs.«152220_j7301444403233_1_alg».proof.Proof.KChain
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ) (ρ : Dev nD → PrngReg)

/-- Row `r` of the block at point `t` is row `10000 * t + r` of the array. -/
def rowOf (t : Fin cfg0.N) (r : Fin 10000) : Fin 2000000 :=
  ⟨10000 * t.val + r.val, by have h : t.val < 200 := lt_of_lt_of_eq t.isLt (show cfg0.N = 200 from N_0); have hr := r.isLt; omega⟩

/-- Each input window's block index at point `t` is `(t, 0)`: decided over the grid. -/
theorem idx_w0 : ∀ t : Fin cfg0.N, win0_0.index t (0 : Fin 2) = t.val ∧ win0_0.index t (1 : Fin 2) = 0 :=
  (by decide +kernel : ∀ t : Fin grid0.N, _)
theorem idx_w1 : ∀ t : Fin cfg0.N, win0_1.index t (0 : Fin 2) = t.val ∧ win0_1.index t (1 : Fin 2) = 0 :=
  (by decide +kernel : ∀ t : Fin grid0.N, _)
theorem idx_w2 : ∀ t : Fin cfg0.N, win0_2.index t (0 : Fin 2) = t.val ∧ win0_2.index t (1 : Fin 2) = 0 :=
  (by decide +kernel : ∀ t : Fin grid0.N, _)

/-- The first gathered array as the region finds it. -/
abbrev uarr (c : Dev nD) : Vec F S2000000x32 .f32 := V m c main_v6
/-- The second gathered array as the region finds it. -/
abbrev varr (c : Dev nD) : Vec F S2000000x32 .f32 := V m c main_v13
/-- The ratings column as the region finds it. -/
abbrev rarr (c : Dev nD) : Vec F S2000000x1 .f32 := V m c main_v14

theorem ublk_apply (c : Dev nD) (t : Fin cfg0.N) (r : Fin 10000) (k : Fin 32) :
    ublk m c t (ix2 r k) = uarr m c (ix2 (rowOf t r) k) := by
  unfold ublk iblk
  rw [View.read_apply]
  show V m c main_v6 _ = V m c main_v6 _
  congr 1
  funext a
  apply Fin.ext
  match a with
  | ⟨0, _⟩ => show win0_1.index t 0 * 10000 + 1 * r.val = 10000 * t.val + r.val; rw [(idx_w1 t).1]; omega
  | ⟨1, _⟩ => show win0_1.index t 1 * 32 + 1 * k.val = k.val; rw [(idx_w1 t).2]; omega

theorem vblk_apply (c : Dev nD) (t : Fin cfg0.N) (r : Fin 10000) (k : Fin 32) :
    vblk m c t (ix2 r k) = varr m c (ix2 (rowOf t r) k) := by
  unfold vblk iblk
  rw [View.read_apply]
  show V m c main_v13 _ = V m c main_v13 _
  congr 1
  funext a
  apply Fin.ext
  match a with
  | ⟨0, _⟩ => show win0_2.index t 0 * 10000 + 1 * r.val = 10000 * t.val + r.val; rw [(idx_w2 t).1]; omega
  | ⟨1, _⟩ => show win0_2.index t 1 * 32 + 1 * k.val = k.val; rw [(idx_w2 t).2]; omega

theorem rblk_apply (c : Dev nD) (t : Fin cfg0.N) (r : Fin 10000) :
    rblk m c t (ix2 r (0 : Fin 1)) = rarr m c (ix2 (rowOf t r) (0 : Fin 1)) := by
  unfold rblk iblk
  rw [View.read_apply]
  show V m c main_v14 _ = V m c main_v14 _
  congr 1
  funext a
  apply Fin.ext
  match a with
  | ⟨0, _⟩ => show win0_0.index t 0 * 10000 + 1 * r.val = 10000 * t.val + r.val; rw [(idx_w0 t).1]; omega
  | ⟨1, _⟩ => show win0_0.index t 1 * 1 + 1 * 0 = 0; rw [(idx_w0 t).2]

/-- The ratings column is the ratings reshaped: its entry `(i, 0)` is the ratings' entry `i`. -/
theorem rarr_apply (c : Dev nD) (i : Fin 2000000) :
    rarr m c (ix2 i (0 : Fin 1)) = (m ((c : Thread nD τ).loc main_arg2) : Vec F S2000000 .f32) (ix1 i) := by
  have e : (V m c main_v14 : Vec F S2000000x1 .f32)
      = shapeCast S2000000x1 (m ((c : Thread nD τ).loc main_arg2) : Vec F S2000000 .f32) shapeCasts_S2000000_S2000000x1 := by
    show StableHlo.after hostOps0 (fun b => m (c, b)) (Proc.devRef .tc main_v14) = _
    after_results
    rfl
  show (V m c main_v14 : Vec F S2000000x1 .f32) _ = _
  rw [e]
  refine shapeCast_apply _ shapeCasts_S2000000_S2000000x1 (ix2 i (0 : Fin 1)) (ix1 i) ?_
  rw [Shape.rowMajor_val_two, Shape.rowMajor_val_one]
  show i.val = i.val * 1 + 0
  omega

end Cert.KernelIdeal.KValue

end
-- ==== Proof.Spec.lean ====
/-
  The loss as ONE function of the two gathered embedding arrays and the ratings, over the extended reals, and
  the two arrangements of its sums.

  For row `i` the logit is `l i = ∑ k, u (i, k) * v (i, k)`; its loss term is the stable softplus of the logit less
  `l i * r i`; the first summand of the result is the sum of the terms over all 2,000,000 rows, the other two are
  a tenth of the square root of the sum of all squares of `u`, and of `v`.

  A sum over the 2,000,000 rows is the sum over 200 consecutive stretches of 10,000 rows of each stretch's sum
  (`sum_stretches`), and adding the stretches' sums one after the other to a zero start gives the sum over the
  stretches (`accum_eq`): addition of extended reals is commutative and associative, so no finiteness is needed.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A gathered embedding array: 2,000,000 rows of 32. -/
abbrev Emb := (⟨2, ![2000000, 32]⟩ : Shape).Idx → EReal
/-- The ratings, one per row. -/
abbrev Col := (⟨1, ![2000000]⟩ : Shape).Idx → EReal

/-- A function on the first `n` naturals continued by zero: sums over stretches of naturals need no bound proofs. -/
def onFin {n : ℕ} (G : Fin n → EReal) (k : ℕ) : EReal := if h : k < n then G ⟨k, h⟩ else 0

theorem onFin_val {n : ℕ} (G : Fin n → EReal) (i : Fin n) : onFin G i.val = G i := dif_pos i.isLt

theorem onFin_of_lt {n : ℕ} (G : Fin n → EReal) {k : ℕ} (h : k < n) : onFin G k = G ⟨k, h⟩ := dif_pos h

/-- Row `i`'s logit: the dot product of the two rows. -/
def logit (u v : Emb) (i : Fin 2000000) : EReal := ∑ k : Fin 32, u (ix2 i k) * v (ix2 i k)

/-- `log (1 + exp l)` as both programs compute it: `max 0 l + log1p (exp (-|0 - l|))`, behind a select on
    `0 - l ≠ 0 - l` (never taken: no extended real differs from itself). -/
def softplus (l : EReal) : EReal :=
  Scalar.select (Ideal.cmp .one (0 - l) (0 - l)) (0 + l)
    (max 0 l + Ideal.log1p (Ideal.exp (-(max (0 - l) (-(0 - l))))))

/-- A row's loss term from its logit and its rating. -/
def rowLoss (l r : EReal) : EReal := softplus l - l * r

/-- Row `i`'s term. -/
def term (u v : Emb) (rt : Col) (i : Fin 2000000) : EReal := rowLoss (logit u v i) (rt (ix1 i))

/-- Row `i`'s sum of squares. -/
def rowSq (u : Emb) (i : Fin 2000000) : EReal := ∑ k : Fin 32, u (ix2 i k) * u (ix2 i k)

/-- The sum of the loss terms over all rows. -/
def bce (u v : Emb) (rt : Col) : EReal := ∑ i : Fin 2000000, term u v rt i

/-- The sum of all squares of an embedding array. -/
def sq (u : Emb) : EReal := ∑ i : Fin 2000000, rowSq u i

/-- The last step, from the three sums: the loss plus a tenth (the binary32 nearest it, the same word in both
    programs) of each square root. -/
def tot (b su sv : EReal) : EReal :=
  (b + Ideal.ofBits .f32 0x3DCCCCCD#32 * Ideal.sqrt su) + Ideal.ofBits .f32 0x3DCCCCCD#32 * Ideal.sqrt sv

/-- The result. -/
def total (u v : Emb) (rt : Col) : EReal := tot (bce u v rt) (sq u) (sq v)

/-- Both programs spell the last step with the host's operations. -/
theorem tot_host (b su sv : Ideal .f32) :
    FloatOps.addf (FloatOps.addf b (FloatOps.mulf (FloatOps.ofBits .f32 0x3DCCCCCD#32) (FloatOps.hostUnary .sqrt su)))
      (FloatOps.mulf (FloatOps.ofBits .f32 0x3DCCCCCD#32) (FloatOps.hostUnary .sqrt sv)) = tot b su sv := rfl

/-! ## The two programs' spellings of a row's term -/

/-- Zero less `x` is `-x`. -/
theorem zero_sub' (x : EReal) : 0 - x = -x := by rw [sub_eq_add_neg, zero_add]

/-- The host's spelling: an unordered "not equal" (the ordered one here: nothing is unordered), the negation of the
    absolute value, the host's exponential and `log1p` (the extended reals' own). -/
theorem rowLoss_host (L r : Ideal .f32) :
    FloatOps.subf (Scalar.select (FloatOps.cmpf .une (FloatOps.subf (0 : Ideal .f32) L) (FloatOps.subf (0 : Ideal .f32) L))
        (FloatOps.addf (0 : Ideal .f32) L)
        (FloatOps.addf (FloatOps.maximumf (0 : Ideal .f32) L)
          (FloatOps.hostUnary .log1p (FloatOps.hostUnary .exp (FloatOps.hostNegf (FloatOps.hostAbsf (FloatOps.subf (0 : Ideal .f32) L)))))))
      (FloatOps.mulf L r) = rowLoss L r := rfl

/-- The kernel's spelling: zero less the absolute value where the host negates it. -/
theorem rowLoss_kernel (L r : Ideal .f32) :
    FloatOps.subf (Scalar.select (FloatOps.cmpf .one (FloatOps.subf (0 : Ideal .f32) L) (FloatOps.subf (0 : Ideal .f32) L))
        (FloatOps.addf (0 : Ideal .f32) L)
        (FloatOps.addf (FloatOps.maximumf (0 : Ideal .f32) L)
          (FloatOps.log1p (FloatOps.exp (FloatOps.subf (0 : Ideal .f32) (FloatOps.absf (FloatOps.subf (0 : Ideal .f32) L)))))))
      (FloatOps.mulf L r) = rowLoss L r := by
  unfold rowLoss softplus
  rw [← zero_sub' (max (0 - L) (-(0 - L)))]
  rfl

/-! ## Sums over stretches -/

/-- A sum over `a * b` naturals is the sum over `a` stretches of `b`. -/
theorem sum_fin_mul {M : Type*} [AddCommMonoid M] (a b : ℕ) (G : ℕ → M) :
    ∑ i : Fin (a * b), G i.val = ∑ t : Fin a, ∑ r : Fin b, G (r.val + b * t.val) := by
  rw [← finProdFinEquiv.sum_comp, Fintype.sum_prod_type]
  rfl

/-- The sum over the 2,000,000 rows is the sum over the 200 stretches of 10,000 rows. -/
theorem sum_stretches (G : Fin 2000000 → EReal) :
    ∑ i : Fin 2000000, G i = ∑ t ∈ Finset.range 200, ∑ r : Fin 10000, onFin G (10000 * t + r.val) := by
  have h := sum_fin_mul 200 10000 (onFin G)
  rw [Finset.sum_range fun t => ∑ r : Fin 10000, onFin G (10000 * t + r.val)]
  refine Eq.trans ?_ (h.trans (Finset.sum_congr rfl fun t _ => Finset.sum_congr rfl fun r _ => by rw [Nat.add_comm]))
  exact Finset.sum_congr rfl fun i _ => (onFin_val G i).symm

/-- Adding the parts one after the other to a zero start. -/
def accum (P : ℕ → EReal) : ℕ → EReal
  | 0 => 0 + P 0
  | n + 1 => accum P n + P (n + 1)

theorem accum_eq (P : ℕ → EReal) (n : ℕ) : accum P n = ∑ k ∈ Finset.range (n + 1), P k := by
  induction n with
  | zero => simp [accum]
  | succ n ih => rw [accum, ih, Finset.sum_range_succ _ (n + 1)]

/-- The 200 stretches' sums added one after the other are the sum over all rows. -/
theorem accum_stretches (G : Fin 2000000 → EReal) (P : ℕ → EReal)
    (hP : ∀ t, t < 200 → P t = ∑ r : Fin 10000, onFin G (10000 * t + r.val)) :
    accum P 199 = ∑ i : Fin 2000000, G i := by
  rw [accum_eq, sum_stretches]
  exact Finset.sum_congr rfl fun t ht => hP t (Finset.mem_range.mp ht)

end Cert.Spec

end
-- ==== Proof.KArith.lean ====
/-
  The kernel body's arithmetic over the extended reals, read at an index. An accumulator step adds the point's
  partial sum to the word it reads; the loss partial sum is the sum over the block's 10,000 rows of each row's loss
  term (its logit the dot product of the two blocks' rows, its rating the ratings block's entry), the two other
  partial sums are the sums over the rows of each row's sum of squares.
-/
import proofs.«152220_j7301444403233_1_alg».proof.Proof.Gen.KernelIdeal.Skeleton
import proofs.«152220_j7301444403233_1_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.KArith

open Cert.KernelIdeal Cert.KernelIdeal.Gen Idealize.ShloMosaic Idealize.ShloMosaic.ValueIdx

/-! ## The accumulator steps and the zero they start from -/

theorem pay1_eq (p : Ideal .f32) (x : Vec Ideal S1x1 .f32) : k0_pay1 (F := Ideal) p x = fun j => x j + p := by
  unfold k0_pay1
  rw [shapeCast_self]
  rfl

theorem pay2_eq (p : Ideal .f32) (x : Vec Ideal S1x1 .f32) : k0_pay2 (F := Ideal) p x = fun j => x j + p := by
  unfold k0_pay2
  rw [shapeCast_self]
  rfl

/-- The one entry of a one-element vector, cast to 1 by 1 and extracted. -/
theorem extract_cast (q : FVec Ideal S1 .f32) :
    extractAt ![0, 0] (shapeCast S1x1 q shapeCasts_S1_S1x1) inpos_S1x1_p0_0 = q (ix1 (0 : Fin 1)) := by
  have e : (fun a => (⟨(![0, 0] : Fin 2 → Nat) a, inpos_S1x1_p0_0 a⟩ : Fin (S1x1.size a))) = ix2 (0 : Fin 1) (0 : Fin 1) :=
    funext fun a => Fin.ext (by match a with | ⟨0, _⟩ => rfl | ⟨1, _⟩ => rfl)
  unfold extractAt
  rw [e]
  exact shapeCast_a_1a_apply q shapeCasts_S1_S1x1 (0 : Fin 1) (0 : Fin 1)

theorem pay3_eq (q : FVec Ideal S1 .f32) (x : Vec Ideal S1x1 .f32) :
    k0_pay3 (F := Ideal) q x = fun j => x j + q (ix1 (0 : Fin 1)) := by
  unfold k0_pay3
  rw [shapeCast_self]
  funext j
  show x j + extractAt ![0, 0] (shapeCast S1x1 q shapeCasts_S1_S1x1) inpos_S1x1_p0_0 = _
  rw [extract_cast]

theorem pay4_eq : k0_pay4 (F := Ideal) = fun _ => (0 : EReal) := by
  unfold k0_pay4
  funext j
  exact Ideal.ofBits_zero_f32

theorem pay5_eq : k0_pay5 (F := Ideal) = fun _ => (0 : EReal) := by
  unfold k0_pay5
  funext j
  exact Ideal.ofBits_zero_f32

theorem pay6_eq : k0_pay6 (F := Ideal) = fun _ => (0 : EReal) := by
  unfold k0_pay6
  funext j
  exact Ideal.ofBits_zero_f32

/-! ## Sums along a row and down the rows -/

/-- The lane sum of a 10,000 by 32 block at row `r` is the sum over the row's 32 entries. -/
theorem lane_sum (w : FVec Ideal S10000x32 .f32) (hacc : (0x00000000#32 : BitVec 32) = 0x00000000#32) (r : Fin 10000) :
    multiReduction .add [1] S10000 w 0x00000000#32 reduces_S10000x32_S10000 (.inl rfl) hacc (ix1 r)
      = ∑ k : Fin 32, w (ix2 r k) := by
  refine (Ideal.multiReduction_add_single w 0x00000000#32 reduces_S10000x32_S10000 (.inl rfl) hacc (ix1 r)).trans ?_
  refine Finset.sum_congr rfl fun k _ => congrArg w ?_
  exact funext fun d => Fin.ext (by match d with | ⟨0, _⟩ => rfl | ⟨1, _⟩ => rfl)

/-- The sum of a 10,000-vector, taken as the lane sum of its 1 by 10,000 cast, is the sum of its entries. -/
theorem col_sum (w : FVec Ideal S10000 .f32) (hacc : (0x00000000#32 : BitVec 32) = 0x00000000#32) :
    multiReduction .add [1] S1 (shapeCast S1x10000 w shapeCasts_S10000_S1x10000) 0x00000000#32 reduces_S1x10000_S1 (.inl rfl) hacc
        (ix1 (0 : Fin 1))
      = ∑ r : Fin 10000, w (ix1 r) := by
  refine (Ideal.multiReduction_add_single (shapeCast S1x10000 w shapeCasts_S10000_S1x10000) 0x00000000#32 reduces_S1x10000_S1
    (.inl rfl) hacc (ix1 (0 : Fin 1))).trans ?_
  refine Finset.sum_congr rfl fun r _ => ?_
  have e : reduces_S1x10000_S1.lift (ix1 (0 : Fin 1)) r = ix2 (0 : Fin 1) r :=
    funext fun d => Fin.ext (by match d with | ⟨0, _⟩ => rfl | ⟨1, _⟩ => rfl)
  rw [e]
  exact shapeCast_a_1a_apply w shapeCasts_S10000_S1x10000 (0 : Fin 1) r

/-- The ratings block, a column, read as a vector: entry `r` is the column's entry `(r, 0)`. -/
theorem col_apply (xr : Vec Ideal S10000x1 .f32) (r : Fin 10000) :
    shapeCast S10000 (shapeCast S10000x1 xr shapeCasts_S10000x1_S10000x1) shapeCasts_S10000x1_S10000 (ix1 r)
      = xr (ix2 r (0 : Fin 1)) := by
  rw [shapeCast_self]
  refine shapeCast_apply xr shapeCasts_S10000x1_S10000 (ix1 r) (ix2 r (0 : Fin 1)) ?_
  rw [Shape.rowMajor_val_two, Shape.rowMajor_val_one]
  show r.val * 1 + 0 = r.val
  omega

/-! ## The three partial sums of a point -/

/-- The body's elementwise chain from the vector of logits and the vector of ratings to the vector of loss terms. -/
def rowVec (l rt : FVec Ideal S10000 .f32) : FVec Ideal S10000 .f32 :=
  subf (select (cmpf .one (subf (broadcast S10000 (Scalar.ofBits .f32 0x00000000#32)) l) (subf (broadcast S10000 (Scalar.ofBits .f32 0x00000000#32)) l))
      (addf (broadcast S10000 (Scalar.ofBits .f32 0x00000000#32)) l)
      (addf (maximumf (broadcast S10000 (Scalar.ofBits .f32 0x00000000#32)) l)
        (log1p (exp (subf (broadcast S10000 (Scalar.ofBits .f32 0x00000000#32))
          (absf (subf (broadcast S10000 (Scalar.ofBits .f32 0x00000000#32)) l)))))))
    (mulf l rt)

/-- At each row it is the row's loss term. -/
theorem rowVec_apply (l rt : FVec Ideal S10000 .f32) (j : S10000.Idx) :
    rowVec l rt j = Cert.Spec.rowLoss (l j) (rt j) := by
  have hz : Scalar.ofBits (F := Ideal) .f32 0x00000000#32 = (0 : Ideal .f32) := Ideal.ofBits_zero_f32
  unfold rowVec
  rw [hz]
  exact Cert.Spec.rowLoss_kernel (l j) (rt j)

/-- The loss partial sum of a point: the sum over the block's rows of each row's loss term. -/
theorem pay9_eq (xu xv : Vec Ideal S10000x32 .f32) (xr : Vec Ideal S10000x1 .f32) :
    k0_pay9 (F := Ideal) xu xv xr
      = ∑ r : Fin 10000, Cert.Spec.rowLoss (∑ k : Fin 32, xu (ix2 r k) * xv (ix2 r k)) (xr (ix2 r (0 : Fin 1))) := by
  have h0 : k0_pay9 (F := Ideal) xu xv xr
      = extractAt ![0, 0] (shapeCast S1x1 (multiReduction .add [1] S1 (shapeCast S1x10000
          (rowVec (multiReduction .add [1] S10000 (mulf (k0_pay7 xu) (k0_pay8 xv)) 0x00000000#32 reduces_S10000x32_S10000 (.inl rfl) rfl)
            (shapeCast S10000 (shapeCast S10000x1 xr shapeCasts_S10000x1_S10000x1) shapeCasts_S10000x1_S10000))
          shapeCasts_S10000_S1x10000) 0x00000000#32 reduces_S1x10000_S1 (.inl rfl) rfl) shapeCasts_S1_S1x1) inpos_S1x1_p0_0 := rfl
  refine h0.trans ((extract_cast _).trans ((col_sum _ rfl).trans (Finset.sum_congr rfl fun r _ => ?_)))
  refine (rowVec_apply _ _ (ix1 r)).trans ?_
  refine congrArg₂ Cert.Spec.rowLoss ((lane_sum _ rfl r).trans (Finset.sum_congr rfl fun k _ => ?_)) (col_apply xr r)
  unfold k0_pay7 k0_pay8
  rw [shapeCast_self, shapeCast_self]
  rfl

/-- The partial sum of squares of a point: the sum over the block's rows of each row's sum of squares. -/
theorem pay10_eq (xu : Vec Ideal S10000x32 .f32) :
    k0_pay10 (F := Ideal) xu = ∑ r : Fin 10000, ∑ k : Fin 32, xu (ix2 r k) * xu (ix2 r k) := by
  have h0 : k0_pay10 (F := Ideal) xu
      = extractAt ![0, 0] (shapeCast S1x1 (multiReduction .add [1] S1 (shapeCast S1x10000
          (multiReduction .add [1] S10000 (mulf (k0_pay7 xu) (k0_pay7 xu)) 0x00000000#32 reduces_S10000x32_S10000 (.inl rfl) rfl)
          shapeCasts_S10000_S1x10000) 0x00000000#32 reduces_S1x10000_S1 (.inl rfl) rfl) shapeCasts_S1_S1x1) inpos_S1x1_p0_0 := rfl
  refine h0.trans ((extract_cast _).trans ((col_sum _ rfl).trans (Finset.sum_congr rfl fun r _ => ?_)))
  refine (lane_sum _ rfl r).trans (Finset.sum_congr rfl fun k _ => ?_)
  unfold k0_pay7
  rw [shapeCast_self]
  rfl

/-- The same for the second block (left as a one-element vector, which the accumulator step reads at its entry). -/
theorem pay11_eq (xv : Vec Ideal S10000x32 .f32) :
    k0_pay11 (F := Ideal) xv (ix1 (0 : Fin 1)) = ∑ r : Fin 10000, ∑ k : Fin 32, xv (ix2 r k) * xv (ix2 r k) := by
  have h0 : k0_pay11 (F := Ideal) xv
      = multiReduction .add [1] S1 (shapeCast S1x10000
          (multiReduction .add [1] S10000 (mulf (k0_pay8 xv) (k0_pay8 xv)) 0x00000000#32 reduces_S10000x32_S10000 (.inl rfl) rfl)
          shapeCasts_S10000_S1x10000) 0x00000000#32 reduces_S1x10000_S1 (.inl rfl) rfl := rfl
  refine (congrFun h0 _).trans ((col_sum _ rfl).trans (Finset.sum_congr rfl fun r _ => ?_))
  refine (lane_sum _ rfl r).trans (Finset.sum_congr rfl fun k _ => ?_)
  unfold k0_pay8
  rw [shapeCast_self]
  rfl

end Cert.KernelIdeal.KArith

end
-- ==== Proof.KIdeal.lean ====
/-
  The kernel's result over the extended reals is the specification's loss of the arrays it is launched on: each
  accumulator's last value is its 200 partial sums added one after the other to a zero start; a point's partial sum
  is the sum over its stretch of 10,000 rows of the rows' terms; so the three words are the three sums over all
  rows, and the host lines after the launch are the specification's last step.
-/
import proofs.«152220_j7301444403233_1_alg».proof.Proof.KFinal
import proofs.«152220_j7301444403233_1_alg».proof.Proof.KBlocks
import proofs.«152220_j7301444403233_1_alg».proof.Proof.KArith
import proofs.«152220_j7301444403233_1_alg».proof.Proof.Spec

noncomputable section

open scoped BigOperators

open Idealize.ShloMosaic Idealize.ShloMosaic.TcCoe Idealize.SL.Sem Idealize.ShloMosaic.ValueIdx

namespace Cert.KernelIdeal.KValue

open Cert.KernelIdeal Cert.KernelIdeal.Gen Cert.KernelIdeal.KArith

variable (m : (ℓ : Loc nD τ sig) → Buf (Elt Ideal) ℓ)

/-- The ratings as the program is launched on them. -/
abbrev rats (c : Dev nD) : Cert.Spec.Col := m ((c : Thread nD τ).loc main_arg2)

/-- The loss partial sum of point `k` (zero past the grid). -/
def part3 (c : Dev nD) (k : ℕ) : EReal :=
  if h : k < cfg0.N then k0_pay9 (F := Ideal) (ublk m c ⟨k, h⟩) (vblk m c ⟨k, h⟩) (rblk m c ⟨k, h⟩) else 0
/-- The first array's partial sum of squares at point `k`. -/
def part4 (c : Dev nD) (k : ℕ) : EReal :=
  if h : k < cfg0.N then k0_pay10 (F := Ideal) (ublk m c ⟨k, h⟩) else 0
/-- The second array's partial sum of squares at point `k`. -/
def part5 (c : Dev nD) (k : ℕ) : EReal :=
  if h : k < cfg0.N then k0_pay11 (F := Ideal) (vblk m c ⟨k, h⟩) (ix1 (0 : Fin 1)) else 0

/-- Each accumulator after point `n` is its partial sums up to `n` added one after the other to a zero start. -/
theorem acc3_eq (c : Dev nD) : ∀ (n : ℕ) (h : n < cfg0.N), acc3 m c n h = fun _ => Cert.Spec.accum (part3 m c) n
  | 0, h => by
    rw [acc3, pay1_eq, pay4_eq]
    funext j
    simp only [Cert.Spec.accum, part3, dif_pos h]
  | n + 1, h => by
    rw [acc3, pay1_eq, acc3_eq c n]
    funext j
    simp only [Cert.Spec.accum, part3, dif_pos h]

theorem acc4_eq (c : Dev nD) : ∀ (n : ℕ) (h : n < cfg0.N), acc4 m c n h = fun _ => Cert.Spec.accum (part4 m c) n
  | 0, h => by
    rw [acc4, pay2_eq, pay5_eq]
    funext j
    simp only [Cert.Spec.accum, part4, dif_pos h]
  | n + 1, h => by
    rw [acc4, pay2_eq, acc4_eq c n]
    funext j
    simp only [Cert.Spec.accum, part4, dif_pos h]

theorem acc5_eq (c : Dev nD) : ∀ (n : ℕ) (h : n < cfg0.N), acc5 m c n h = fun _ => Cert.Spec.accum (part5 m c) n
  | 0, h => by
    rw [acc5, pay3_eq, pay6_eq]
    funext j
    simp only [Cert.Spec.accum, part5, dif_pos h]
  | n + 1, h => by
    rw [acc5, pay3_eq, acc5_eq c n]
    funext j
    simp only [Cert.Spec.accum, part5, dif_pos h]

/-- Row `r` of the block at point `t` is row `10000 * t + r` of the arrays. -/
theorem rowOf_eq (t : ℕ) (h : t < cfg0.N) (r : Fin 10000) (hlt : 10000 * t + r.val < 2000000) :
    rowOf ⟨t, h⟩ r = ⟨10000 * t + r.val, hlt⟩ := rfl

/-- A point's loss partial sum is the sum of its stretch's row terms. -/
theorem part3_eq (c : Dev nD) (t : ℕ) (ht : t < 200) :
    part3 m c t = ∑ r : Fin 10000, Cert.Spec.onFin (Cert.Spec.term (uarr m c) (varr m c) (rats m c)) (10000 * t + r.val) := by
  have h : t < cfg0.N := lt_of_lt_of_eq ht (show cfg0.N = 200 from N_0).symm
  rw [part3, dif_pos h, pay9_eq]
  refine Finset.sum_congr rfl fun r _ => ?_
  have hlt : 10000 * t + r.val < 2000000 := by have := r.isLt; omega
  rw [Cert.Spec.onFin_of_lt _ hlt]
  unfold Cert.Spec.term Cert.Spec.logit
  refine congrArg₂ Cert.Spec.rowLoss (Finset.sum_congr rfl fun k _ => ?_) ?_
  · rw [ublk_apply, vblk_apply, rowOf_eq t h r hlt]
  · rw [rblk_apply, rarr_apply, rowOf_eq t h r hlt]

/-- A point's partial sum of squares is the sum of its stretch's rows' sums of squares. -/
theorem part4_eq (c : Dev nD) (t : ℕ) (ht : t < 200) :
    part4 m c t = ∑ r : Fin 10000, Cert.Spec.onFin (Cert.Spec.rowSq (uarr m c)) (10000 * t + r.val) := by
  have h : t < cfg0.N := lt_of_lt_of_eq ht (show cfg0.N = 200 from N_0).symm
  rw [part4, dif_pos h, pay10_eq]
  refine Finset.sum_congr rfl fun r _ => ?_
  have hlt : 10000 * t + r.val < 2000000 := by have := r.isLt; omega
  rw [Cert.Spec.onFin_of_lt _ hlt]
  unfold Cert.Spec.rowSq
  refine Finset.sum_congr rfl fun k _ => ?_
  rw [ublk_apply, rowOf_eq t h r hlt]

theorem part5_eq (c : Dev nD) (t : ℕ) (ht : t < 200) :
    part5 m c t = ∑ r : Fin 10000, Cert.Spec.onFin (Cert.Spec.rowSq (varr m c)) (10000 * t + r.val) := by
  have h : t < cfg0.N := lt_of_lt_of_eq ht (show cfg0.N = 200 from N_0).symm
  rw [part5, dif_pos h, pay11_eq]
  refine Finset.sum_congr rfl fun r _ => ?_
  have hlt : 10000 * t + r.val < 2000000 := by have := r.isLt; omega
  rw [Cert.Spec.onFin_of_lt _ hlt]
  unfold Cert.Spec.rowSq
  refine Finset.sum_congr rfl fun k _ => ?_
  rw [vblk_apply, rowOf_eq t h r hlt]

/-- The three words written back are the three sums over all rows. -/
theorem res3_eq (c : Dev nD) : res3 m c = fun _ => Cert.Spec.bce (uarr m c) (varr m c) (rats m c) :=
  (acc3_eq m c 199 tLast.isLt).trans (funext fun _ => Cert.Spec.accum_stretches _ _ (part3_eq m c))

theorem res4_eq (c : Dev nD) : res4 m c = fun _ => Cert.Spec.sq (uarr m c) :=
  (acc4_eq m c 199 tLast.isLt).trans (funext fun _ => Cert.Spec.accum_stretches _ _ (part4_eq m c))

theorem res5_eq (c : Dev nD) : res5 m c = fun _ => Cert.Spec.sq (varr m c) :=
  (acc5_eq m c 199 tLast.isLt).trans (funext fun _ => Cert.Spec.accum_stretches _ _ (part5_eq m c))

/-- The host lines after the launch, on three words, are the specification's last step. -/
theorem tailVal_const (b su sv : EReal) :
    tailVal (F := Ideal) (fun _ => b) (fun _ => su) (fun _ => sv) = fun _ => Cert.Spec.tot b su sv := by
  funext i
  exact Cert.Spec.tot_host b su sv

/-- The kernel's result is the specification's loss of the arrays it is launched on. -/
theorem result_eq (c : Dev nD) :
    tailVal (res3 m c) (res4 m c) (res5 m c) = fun _ => Cert.Spec.total (uarr m c) (varr m c) (rats m c) := by
  rw [res3_eq, res4_eq, res5_eq]
  exact tailVal_const _ _ _

end Cert.KernelIdeal.KValue

end
-- ==== Proof.RefVal.lean ====
/-
  The reference's result, read one operation at a time, is the loss function of the specification applied to the
  two gathered arrays and the ratings: its row sums are the rows' dot products (after the zero start is dropped),
  its elementwise chain is the row's loss term, its three total sums are sums over the rows.
-/
import proofs.«152220_j7301444403233_1_alg».proof.Proof.Gen.ReferenceIdeal.Run
import proofs.«152220_j7301444403233_1_alg».proof.Proof.Gen.ReferenceIdeal.Read
import proofs.«152220_j7301444403233_1_alg».proof.Proof.Spec

noncomputable section

open scoped BigOperators

namespace Cert.ReferenceIdeal.RefValue

open Cert.ReferenceIdeal Cert.ReferenceIdeal.Read Idealize.ShloMosaic Idealize.ShloMosaic.ValueIdx

/-- A rank-1 index is its one coordinate, -/
def idxEquiv1 {n : Nat} : (⟨1, ![n]⟩ : Shape).Idx ≃ Fin n where
  toFun i := i 0
  invFun a := ix1 a
  left_inv i := (eq_ix1 i).symm
  right_inv _ := rfl

/-- so a sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

variable (x0 x1 : (⟨S2000000, .i32⟩ : BufTy).Contents (Elt Ideal)) (x2 : (⟨S2000000, .f32⟩ : BufTy).Contents (Elt Ideal)) (x3 : (⟨S100000x32, .f32⟩ : BufTy).Contents (Elt Ideal)) (x4 : (⟨S200000x32, .f32⟩ : BufTy).Contents (Elt Ideal))

/-- The first gathered array. -/
abbrev uArr : Cert.Spec.Emb := val_main_v6 (F := Ideal) x0 x3
/-- The second gathered array. -/
abbrev vArr : Cert.Spec.Emb := val_main_v13 (F := Ideal) x1 x4

/-- The reference's row sum at row `a` is the rows' dot product: the zero it starts from adds nothing. -/
theorem logit_eq (a : Fin 2000000) :
    val_main_v15 (F := Ideal) x0 x1 x3 x4 (ix1 a) = Cert.Spec.logit (uArr x0 x3) (vArr x1 x4) a := by
  rw [val_main_v15_apply, val_main_cst_apply]
  show Ideal.ofBits .f32 0x00000000#32 + _ = _
  rw [Ideal.ofBits_zero_f32, zero_add]
  refine Finset.sum_congr rfl fun k _ => ?_
  have e : idx_main_v15 (ix1 a) k = ix2 a k := funext fun d => Fin.ext (by match d with | ⟨0, _⟩ => rfl | ⟨1, _⟩ => rfl)
  rw [e]
  rfl

/-- The reference's elementwise chain at row `a` is the row's loss term: the host's comparison, negation,
    absolute value, exponential and `log1p` are the extended reals' own, and its zero constants are zero. -/
theorem term_eq (a : Fin 2000000) :
    val_main_v30 (F := Ideal) x0 x1 x2 x3 x4 (ix1 a) = Cert.Spec.term (uArr x0 x3) (vArr x1 x4) x2 a := by
  have hl := logit_eq x0 x1 x3 x4 a
  have h16 : val_main_v16 (F := Ideal) (ix1 a) = 0 := (val_main_v16_apply _).trans ((val_main_cst_3_apply _).trans Ideal.ofBits_zero_f32)
  have h18 : val_main_v18 (F := Ideal) (ix1 a) = 0 := (val_main_v18_apply _).trans ((val_main_cst_3_apply _).trans Ideal.ofBits_zero_f32)
  have h21 : val_main_v21 (F := Ideal) (ix1 a) = 0 := (val_main_v21_apply _).trans ((val_main_cst_3_apply _).trans Ideal.ofBits_zero_f32)
  unfold Cert.Spec.term
  rw [← hl]
  rw [val_main_v30_apply, val_main_v29_apply, val_main_v28_apply, val_main_v27_apply, val_main_v26_apply, val_main_v25_apply,
    val_main_v24_apply, val_main_v23_apply, val_main_v22_apply, val_main_v20_apply, val_main_v19_apply, val_main_v17_apply]
  rw [h16, h18, h21]
  exact Cert.Spec.rowLoss_host _ _

/-- The reference's first total sum is the sum of the loss terms over the rows. -/
theorem bce_eq (i : S_.Idx) :
    val_main_v31 (F := Ideal) x0 x1 x2 x3 x4 i = Cert.Spec.bce (uArr x0 x3) (vArr x1 x4) x2 := by
  rw [val_main_v31_apply, val_main_cst_4_apply]
  show Ideal.ofBits .f32 0x00000000#32 + _ = _
  rw [Ideal.ofBits_zero_f32, zero_add, sum_idx1]
  exact Finset.sum_congr rfl fun a _ => term_eq x0 x1 x2 x3 x4 a

/-- Its sum of the first array's squares over both axes at once is the sum over the rows of each row's. -/
theorem usq_eq (i : S_.Idx) : val_main_v33 (F := Ideal) x0 x3 i = Cert.Spec.sq (uArr x0 x3) := by
  rw [val_main_v33_apply, val_main_cst_5_apply]
  show Ideal.ofBits .f32 0x00000000#32 + _ = _
  rw [Ideal.ofBits_zero_f32, zero_add, sum_idx2]
  rfl

/-- The same for the second array. -/
theorem vsq_eq (i : S_.Idx) : val_main_v37 (F := Ideal) x1 x4 i = Cert.Spec.sq (vArr x1 x4) := by
  rw [val_main_v37_apply, val_main_cst_7_apply]
  show Ideal.ofBits .f32 0x00000000#32 + _ = _
  rw [Ideal.ofBits_zero_f32, zero_add, sum_idx2]
  rfl

/-- The reference's result is the specification's loss of the gathered arrays and the ratings. -/
theorem total_eq :
    val_main_v41 (F := Ideal) x0 x1 x2 x3 x4 = fun _ => Cert.Spec.total (uArr x0 x3) (vArr x1 x4) x2 := by
  funext i
  rw [val_main_v41_apply, val_main_v40_apply, val_main_v39_apply, val_main_v38_apply, val_main_v35_apply, val_main_v34_apply,
    bce_eq, usq_eq, vsq_eq, val_main_cst_6_apply, val_main_cst_8_apply]
  exact Cert.Spec.tot_host _ _ _

end Cert.ReferenceIdeal.RefValue

end
-- ==== Proof.Bridge.lean ====
/-
  The two programs' host lines before the sums are the same lines: the arrays the kernel is launched on are the
  reference's two gathers of the embedding tables at the normalised ids (the same gather of the same operands).
-/
import proofs.«152220_j7301444403233_1_alg».proof.Proof.KIdeal
import proofs.«152220_j7301444403233_1_alg».proof.Proof.RefVal

noncomputable section

open Idealize.ShloMosaic Idealize.ShloMosaic.TcCoe Idealize.SL.Sem

namespace Cert.Proof.Bridge

open Cert.KernelIdeal Cert.KernelIdeal.Gen Cert.KernelIdeal.KValue

variable (m : (ℓ : Loc nD τ sig) → Buf (Elt Ideal) ℓ)

/-- The first array the kernel is launched on is the reference's first gather, of the same table at the same ids. -/
theorem uarr_eq (c : Dev nD) :
    (uarr m c : Cert.Spec.Emb) = Cert.ReferenceIdeal.Read.val_main_v6 (F := Ideal)
      (m ((c : Thread nD τ).loc main_arg0)) (m ((c : Thread nD τ).loc main_arg3)) := by
  show StableHlo.after hostOps0 (fun b => m (c, b)) (Proc.devRef .tc main_v6) = _
  after_results
  rfl

/-- The second likewise. -/
theorem varr_eq (c : Dev nD) :
    (varr m c : Cert.Spec.Emb) = Cert.ReferenceIdeal.Read.val_main_v13 (F := Ideal)
      (m ((c : Thread nD τ).loc main_arg1)) (m ((c : Thread nD τ).loc main_arg4)) := by
  show StableHlo.after hostOps0 (fun b => m (c, b)) (Proc.devRef .tc main_v13) = _
  after_results
  rfl

end Cert.Proof.Bridge

end
-- ==== Proof.lean ====
/-
  The loss of a matrix-factorisation model over 2,000,000 (user, item, rating) triples: both programs gather one
  32-entry embedding row per triple from each table with the same host gather, take each triple's logit as the dot
  product of its two rows, and return the sum over the triples of `softplus(logit) - logit * rating` plus a tenth
  of the Frobenius norm of each gathered array. The reference sums over all triples at once; the kernel sums 200
  consecutive stretches of 10,000 triples, one per grid point, into three one-word accumulators that are reset at
  the first point and written back after the last, and the host lines after the launch take the square roots.

  Over the extended reals the two agree because addition is commutative and associative there (so a sum may be
  taken stretch by stretch, and a zero start adds nothing), the two spellings of the softplus are one function
  (zero less a number is its negative; the host's comparison, exponential and `log1p` are the kernel's), and the
  tenth is the same binary32 word on both sides. No finiteness of the inputs is used.

  The frames of the kernel and of its idealization are the generated ones; the reference's frame is its generated
  run with the result dropped; the ideal pass rewrote nothing, so `preserves` is `True`.
-/
import proofs.«152220_j7301444403233_1_alg».proof.Defs
import proofs.«152220_j7301444403233_1_alg».proof.Proof.Gen.Kernel
import proofs.«152220_j7301444403233_1_alg».proof.Proof.Gen.Kernel.Frame
import proofs.«152220_j7301444403233_1_alg».proof.Proof.Gen.KernelIdeal
import proofs.«152220_j7301444403233_1_alg».proof.Proof.Gen.KernelIdeal.Frame
import proofs.«152220_j7301444403233_1_alg».proof.Proof.Gen.ReferenceIdeal
import proofs.«152220_j7301444403233_1_alg».proof.Proof.Gen.ReferenceIdeal.Run
import proofs.«152220_j7301444403233_1_alg».proof.Proof.Gen.ReferenceIdeal.Read
import proofs.«152220_j7301444403233_1_alg».proof.Proof.Gen.Pre_finite_inputs
import proofs.«152220_j7301444403233_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the specification's loss of the gathered arrays and the ratings: the kernel's by
    its accumulators read over the grid, the reference's by its run read one operation at a time; the arrays agree
    because the arguments do. -/
theorem algebraic : Cert.algebraic_KernelIdeal_ReferenceIdeal := by
  intro m ρ m' ρ' _ hagree
  refine ⟨fun c => Cert.KernelIdeal.KValue.tailVal (Cert.KernelIdeal.KValue.res3 m c) (Cert.KernelIdeal.KValue.res4 m c)
    (Cert.KernelIdeal.KValue.res5 m c), Cert.KernelIdeal.KValue.run (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v41 m' c = Cert.KernelIdeal.KValue.tailVal (Cert.KernelIdeal.KValue.res3 m c)
    (Cert.KernelIdeal.KValue.res4 m c) (Cert.KernelIdeal.KValue.res5 m c)
  rw [Cert.ReferenceIdeal.Read.val_main_v41_eq, Cert.ReferenceIdeal.RefValue.total_eq, Cert.KernelIdeal.KValue.result_eq,
    (hagree c).1, (hagree c).2.1, (hagree c).2.2.1, (hagree c).2.2.2.1, (hagree c).2.2.2.2,
    Cert.Proof.Bridge.uarr_eq, Cert.Proof.Bridge.varr_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
